-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S2048 : Shape := ⟨1, ![2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x512 .f32) (main_arg5 : FVec F S2048 .f32) (main_arg6 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S16384x512 .f32) (main_arg1 : FVec F S16384x512 .f32) (main_arg2 : FVec F S16384x512 .f32) (main_arg3 : FVec F S2048x512 .f32) (main_arg4 : FVec F S2048x512 .f32) (main_arg5 : FVec F S2048 .f32) (main_arg6 : FVec F S2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_v13 main_v16
-- ==== Kernel.lean ====
abbrev S16384x512 : Shape := ⟨2, ![16384, 512]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S512x512 : Shape := ⟨2, ![512, 512]⟩

abbrev nBuf : Space → Nat
  | .hbm => 15
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S512x2048, .f32⟩
  | .hbm, ⟨8, _⟩ => ⟨S512x2048, .bf16⟩
  | .hbm, ⟨9, _⟩ => ⟨S512x2048, .f32⟩
  | .hbm, ⟨10, _⟩ => ⟨S512x2048, .bf16⟩
  | .hbm, ⟨11, _⟩ => ⟨S2048, .f32⟩
  | .hbm, ⟨12, _⟩ => ⟨S1x2048, .f32⟩
  | .hbm, ⟨13, _⟩ => ⟨S16384x512, .f32⟩
  | .hbm, ⟨14, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2048x512_S512x2048_1_0 : S2048x512.Transposes [1, 0] S512x2048
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S2048 : Shape := ⟨1, ![2048]⟩
abbrev S512x2048 : Shape := ⟨2, ![512, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S512x2048, .f32⟩
  | .hbm, ⟨8, _⟩ => ⟨S16384x2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S512x2048, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S2048x512_S512x2048_1_0 : S2048x512.Transposes [1, 0] S512x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KernelGates.lean ====
/-
  The gate pre-activations the body computes from its blocks, read at one entry.

  At a grid point the body holds a block of 512 batch rows of `x` and of `h`, the two transposed weight matrices
  `[512, 2048]` whole, and the summed bias as one row `[1, 2048]`.  Its value `gates` is the sum of the two products
  into zero accumulators plus the bias row repeated down the 512 rows.  On the extended reals a format change is the
  identity and a product into a zero accumulator is the plain sum over the contracted coordinate, so
      gates[p, j] = Σ_k x[p, k] · wi[k, j] + Σ_k h[p, k] · wh[k, j] + b[0, j].
-/
import proofs.«177456_j73194832659130_1_alg».proof.Proof.Gen.KernelIdeal.Skeleton
import proofs.«177456_j73194832659130_1_alg».proof.Proof.LibRowDims
import Idealize.ShloMosaic.Lib.Pipeline.Value
import Idealize.ShloMosaic.Lib.ValueIdx
import Idealize.ShloMosaic.PureOps.Ideal.Laws

noncomputable section

open scoped BigOperators

namespace Cert.KernelIdeal.Gates

open Cert.KernelIdeal Cert.KernelIdeal.Gen Idealize.ShloMosaic Idealize.ShloMosaic.ValueIdx

/-- The body's two products contract the left operand's columns with the right operand's rows: the plain product of a
    `[512, 512]` by a `[512, 2048]` matrix. -/
theorem dot_eq_plain : dot_S512x512_S512x2048_S512x2048_1_0_0_1_n_n = DotDims.plain 512 512 2048 := rfl

/-- The bias row repeated down the rows, read at `(p, j)`, is the row's entry `j`. -/
theorem bias_rows_apply (b : S1x2048.Idx → EReal) (p : Fin 512) (j : Fin 2048) :
    broadcastTo S512x2048 b broadcasts_S1x2048_S512x2048 (ix2 p j) = b (ix2 0 j) :=
  broadcastTo_apply b broadcasts_S1x2048_S512x2048 (ix2 p j) (ix2 0 j) (fun a => match a with
    | ⟨0, _⟩ => by show (0 : Nat) = if (1 : Nat) = 1 then 0 else _; rw [if_pos rfl]
    | ⟨1, _⟩ => by show j.val = if (2048 : Nat) = 1 then 0 else j.val; rw [if_neg (by decide)])

/-- The pre-activations of one block at entry `(p, j)`: the two sums over the contracted coordinate and the bias. -/
theorem gates_apply (x h : S512x512.Idx → EReal) (wi wh : S512x2048.Idx → EReal) (b : S1x2048.Idx → EReal)
    (p : Fin 512) (j : Fin 2048) :
    k0_pay1 (F := Ideal) x h wi wh b (ix2 p j)
      = (∑ k : Fin 512, x (ix2 p k) * wi (ix2 k j)) + (∑ k : Fin 512, h (ix2 p k) * wh (ix2 k j)) + b (ix2 0 j) := by
  show (addf (F := Ideal) (addf (F := Ideal)
      (matmul dot_S512x512_S512x2048_S512x2048_1_0_0_1_n_n none (truncf .bf16 x bitsLt_bf16_f32)
        (shapeCast S512x2048 wi shapeCasts_S512x2048_S512x2048) (constant S512x2048 .f32 0x00000000#32))
      (matmul dot_S512x512_S512x2048_S512x2048_1_0_0_1_n_n none (truncf .bf16 h bitsLt_bf16_f32)
        (shapeCast S512x2048 wh shapeCasts_S512x2048_S512x2048) (constant S512x2048 .f32 0x00000000#32)))
      (broadcastTo S512x2048 (shapeCast S1x2048 b shapeCasts_S1x2048_S1x2048) broadcasts_S1x2048_S512x2048)) (ix2 p j) = _
  rw [shapeCast_self wi, shapeCast_self wh, shapeCast_self b, dot_eq_plain]
  rw [addf_apply, addf_apply, bias_rows_apply]
  show FloatOps.matmul (F := Ideal) (DotDims.plain 512 512 2048) none (truncf .bf16 x bitsLt_bf16_f32) wi
        (constant ⟨2, ![512, 2048]⟩ .f32 0x00000000#32) (ix2 p j)
      + FloatOps.matmul (F := Ideal) (DotDims.plain 512 512 2048) none (truncf .bf16 h bitsLt_bf16_f32) wh
        (constant ⟨2, ![512, 2048]⟩ .f32 0x00000000#32) (ix2 p j)
      + b (ix2 0 j) = _
  rw [RowDims.matmul_plain_zero_apply, RowDims.matmul_plain_zero_apply]
  rfl

end Cert.KernelIdeal.Gates

end
-- ==== Proof.Cell.lean ====
/-
  One step of an LSTM cell on a batch of 16384 rows with hidden width 512, as a function on the extended reals.

  For batch row `r` and gate column `j` (four blocks of 512 columns: input, forget, candidate, output) the
  pre-activation is
      gate r j = Σ_k x[r, k] · w_ih[j, k] + Σ_k h[r, k] · w_hh[j, k] + (b_ih[j] + b_hh[j]),
  the new cell state is
      c'[r, q] = σ(gate r (512 + q)) · c[r, q] + σ(gate r q) · tanh(gate r (1024 + q)),
  and the new hidden state is
      h'[r, q] = σ(gate r (1536 + q)) · tanh(c'[r, q]),
  with σ the logistic function `1 / (1 + e^(-z))` and every operation the exact one on the extended reals.

  Two laws are all that relates the two ways this cell is computed.  Addition on the extended reals is
  commutative and associative (no finiteness is needed), so the four summands of a pre-activation may be
  grouped as `((A + b_ih) + B) + b_hh` or as `(A + B) + (b_ih + b_hh)`.  And the quotient `1 / (1 + e^(-z))`
  spelt with the float pattern of one is the logistic function itself.
-/
import Idealize.ShloMosaic.PureOps.Ideal
import Idealize.ShloMosaic.Lib.ValueIdx
import Idealize.ShloMosaic.Lib.IdealHost

noncomputable section

open scoped BigOperators

namespace Cert.Lstm

open Idealize.ShloMosaic Idealize.ShloMosaic.ValueIdx

/-- Activations: one row per batch element, 512 columns. -/
abbrev Act : Type := (⟨2, ![16384, 512]⟩ : Shape).Idx → EReal
/-- A weight matrix: one row per gate column (4 · 512 of them), 512 columns. -/
abbrev Wt : Type := (⟨2, ![2048, 512]⟩ : Shape).Idx → EReal
/-- A bias: one entry per gate column. -/
abbrev Bias : Type := (⟨1, ![2048]⟩ : Shape).Idx → EReal

/-- The pre-activation of gate column `j` on batch row `r`. -/
def gate (x h : Act) (wih whh : Wt) (bih bhh : Bias) (r : Fin 16384) (j : Fin 2048) : EReal :=
  (∑ k : Fin 512, x (ix2 r k) * wih (ix2 j k)) + (∑ k : Fin 512, h (ix2 r k) * whh (ix2 j k))
    + (bih (ix1 j) + bhh (ix1 j))

/-- Column `q` of the gate block that starts at column `off`. -/
def col (off : Nat) (hoff : off + 512 ≤ 2048) (q : Fin 512) : Fin 2048 :=
  ⟨off + q.val, by have := q.isLt; omega⟩

/-- The new cell state: forget gate times the old state plus input gate times the candidate. -/
def cNew (x h c : Act) (wih whh : Wt) (bih bhh : Bias) : Act := fun i =>
  Ideal.logistic (gate x h wih whh bih bhh (i 0) (col 512 (by decide) (i 1))) * c i
    + Ideal.logistic (gate x h wih whh bih bhh (i 0) (col 0 (by decide) (i 1)))
      * Ideal.tanh (gate x h wih whh bih bhh (i 0) (col 1024 (by decide) (i 1)))

/-- The new hidden state: output gate times the squashed new cell state. -/
def hNew (x h c : Act) (wih whh : Wt) (bih bhh : Bias) : Act := fun i =>
  Ideal.logistic (gate x h wih whh bih bhh (i 0) (col 1536 (by decide) (i 1)))
    * Ideal.tanh (cNew x h c wih whh bih bhh i)

/-- The four summands of a pre-activation, regrouped: adding each bias right after its product is adding the
    two products and then the sum of the biases. -/
theorem add_regroup (A B bi bh : EReal) : A + bi + B + bh = A + B + (bi + bh) := by
  rw [add_assoc (A + bi) B bh, add_add_add_comm]

/-- The quotient `1 / (1 + e^(-z))`, its two ones given by the float pattern of one and its operations the host's,
    is the logistic function. -/
theorem logistic_of_quotient (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z)) = Ideal.logistic z
  rw [Ideal.ofBits_one_f32]
  rfl

/-- The vector unit's logistic operation is the logistic function. -/
theorem logistic_of_unit (z : EReal) : FloatOps.logistic (F := Ideal) (φ := .f32) z = Ideal.logistic z := rfl

/-- The vector unit's and the host's hyperbolic tangent are one function. -/
theorem tanh_of_unit (z : EReal) : FloatOps.tanh (F := Ideal) (φ := .f32) z = Ideal.tanh z := rfl
theorem tanh_of_host (z : EReal) : FloatOps.hostUnary (F := Ideal) (φ := .f32) .tanh z = Ideal.tanh z := rfl

end Cert.Lstm

end
-- ==== Proof.KernelEntry.lean ====
/-
  One entry of what the body leaves in its two output blocks is the cell's new hidden state and new cell state.

  The body slices its pre-activations `[512, 2048]` into the four gate blocks of 512 columns and combines them entry by
  entry; at block entry `y = (p, q)` it reads the pre-activations of row `p` at columns `q`, `512 + q`, `1024 + q` and
  `1536 + q`, and the old cell state at `y`.  If row `p` of the `x` and `h` blocks is row `r` of the whole arrays, the
  weight blocks are the transposed weight matrices, and the bias row is the sum of the two biases, then those
  pre-activations are the cell's at row `r`, and the entry is the cell's at `(r, q)`.
-/
import proofs.«177456_j73194832659130_1_alg».proof.Proof.Gen.KernelIdeal.Value
import proofs.«177456_j73194832659130_1_alg».proof.Proof.KernelGates
import proofs.«177456_j73194832659130_1_alg».proof.Proof.Cell

noncomputable section

open scoped BigOperators

namespace Cert.KernelIdeal.Entry

open Cert.KernelIdeal Cert.KernelIdeal.Gen Cert.Lstm Idealize.ShloMosaic Idealize.ShloMosaic.ValueIdx

/-! ## Where a block entry reads the pre-activations -/

/-- The hidden state's output gate: column `1536 + q`. -/
theorem hid_out (y : S512x512.Idx) : Value.ix6_0 y = ix2 (n0 := 512) (n1 := 2048) (y 0) (col 1536 (by decide) (y 1)) :=
  funext fun a => by
    match a with
    | ⟨0, _⟩ => rfl
    | ⟨1, _⟩ => exact Fin.ext (Nat.add_comm _ _)
/-- Its forget gate: column `512 + q`. -/
theorem hid_forget (y : S512x512.Idx) : Value.ix6_1 y = ix2 (n0 := 512) (n1 := 2048) (y 0) (col 512 (by decide) (y 1)) :=
  funext fun a => by
    match a with
    | ⟨0, _⟩ => rfl
    | ⟨1, _⟩ => exact Fin.ext (Nat.add_comm _ _)
/-- The old cell state is read at the entry itself. -/
theorem hid_state (y : S512x512.Idx) : Value.ix6_2 y = y :=
  funext fun a => by match a with | ⟨0, _⟩ => rfl | ⟨1, _⟩ => rfl
/-- Its input gate: column `q`. -/
theorem hid_in (y : S512x512.Idx) : Value.ix6_3 y = ix2 (n0 := 512) (n1 := 2048) (y 0) (col 0 (by decide) (y 1)) :=
  funext fun a => by
    match a with
    | ⟨0, _⟩ => rfl
    | ⟨1, _⟩ => exact Fin.ext (Nat.zero_add _).symm
/-- Its candidate: column `1024 + q`. -/
theorem hid_cand (y : S512x512.Idx) : Value.ix6_4 y = ix2 (n0 := 512) (n1 := 2048) (y 0) (col 1024 (by decide) (y 1)) :=
  funext fun a => by
    match a with
    | ⟨0, _⟩ => rfl
    | ⟨1, _⟩ => exact Fin.ext (Nat.add_comm _ _)

/-- The cell state's forget gate: column `512 + q`. -/
theorem cel_forget (y : S512x512.Idx) : Value.ix7_0 y = ix2 (n0 := 512) (n1 := 2048) (y 0) (col 512 (by decide) (y 1)) :=
  funext fun a => by
    match a with
    | ⟨0, _⟩ => rfl
    | ⟨1, _⟩ => exact Fin.ext (Nat.add_comm _ _)
/-- The old cell state is read at the entry itself. -/
theorem cel_state (y : S512x512.Idx) : Value.ix7_1 y = y :=
  funext fun a => by match a with | ⟨0, _⟩ => rfl | ⟨1, _⟩ => rfl
/-- Its input gate: column `q`. -/
theorem cel_in (y : S512x512.Idx) : Value.ix7_2 y = ix2 (n0 := 512) (n1 := 2048) (y 0) (col 0 (by decide) (y 1)) :=
  funext fun a => by
    match a with
    | ⟨0, _⟩ => rfl
    | ⟨1, _⟩ => exact Fin.ext (Nat.zero_add _).symm
/-- Its candidate: column `1024 + q`. -/
theorem cel_cand (y : S512x512.Idx) : Value.ix7_3 y = ix2 (n0 := 512) (n1 := 2048) (y 0) (col 1024 (by decide) (y 1)) :=
  funext fun a => by
    match a with
    | ⟨0, _⟩ => rfl
    | ⟨1, _⟩ => exact Fin.ext (Nat.add_comm _ _)

/-! ## The pre-activations of a block row are the cell's -/

section
variable (X H C : S512x512.Idx → EReal) (WI WH : S512x2048.Idx → EReal) (B : S1x2048.Idx → EReal)
  (x h c : Act) (wih whh : Wt) (bih bhh : Bias)

/-- Row `p` of the block's pre-activations is row `r` of the cell's, when row `p` of the blocks is row `r` of the
    arrays, the weight blocks are the weights transposed, and the bias row is the two biases' sum. -/
theorem gates_row (p : Fin 512) (r : Fin 16384)
    (hX : ∀ k : Fin 512, X (ix2 p k) = x (ix2 r k)) (hH : ∀ k : Fin 512, H (ix2 p k) = h (ix2 r k))
    (hWI : ∀ (k : Fin 512) (j : Fin 2048), WI (ix2 k j) = wih (ix2 j k))
    (hWH : ∀ (k : Fin 512) (j : Fin 2048), WH (ix2 k j) = whh (ix2 j k))
    (hB : ∀ j : Fin 2048, B (ix2 0 j) = bih (ix1 j) + bhh (ix1 j)) (j : Fin 2048) :
    k0_pay1 (F := Ideal) X H WI WH B (ix2 p j) = gate x h wih whh bih bhh r j := by
  rw [Gates.gates_apply]
  unfold gate
  simp only [hX, hH, hWI, hWH, hB]

/-- The new cell state's block at entry `y`. -/
theorem cell_entry (y : S512x512.Idx) (r : Fin 16384)
    (hX : ∀ k : Fin 512, X (ix2 (y 0) k) = x (ix2 r k)) (hH : ∀ k : Fin 512, H (ix2 (y 0) k) = h (ix2 r k))
    (hC : C y = c (ix2 r (y 1)))
    (hWI : ∀ (k : Fin 512) (j : Fin 2048), WI (ix2 k j) = wih (ix2 j k))
    (hWH : ∀ (k : Fin 512) (j : Fin 2048), WH (ix2 k j) = whh (ix2 j k))
    (hB : ∀ j : Fin 2048, B (ix2 0 j) = bih (ix1 j) + bhh (ix1 j)) :
    Value.E7 (F := Ideal) X H WI WH B C y = cNew x h c wih whh bih bhh (ix2 r (y 1)) := by
  have g := gates_row X H WI WH B x h wih whh bih bhh (y 0) r hX hH hWI hWH hB
  show FloatOps.addf (F := Ideal) (φ := .f32)
      (FloatOps.mulf (FloatOps.logistic (k0_pay1 (F := Ideal) X H WI WH B (Value.ix7_0 y))) (C (Value.ix7_1 y)))
      (FloatOps.mulf (FloatOps.logistic (k0_pay1 (F := Ideal) X H WI WH B (Value.ix7_2 y)))
        (FloatOps.tanh (k0_pay1 (F := Ideal) X H WI WH B (Value.ix7_3 y)))) = _
  rw [cel_forget, cel_state, cel_in, cel_cand, g, g, g, hC]
  rfl

/-- The new hidden state's block at entry `y`. -/
theorem hidden_entry (y : S512x512.Idx) (r : Fin 16384)
    (hX : ∀ k : Fin 512, X (ix2 (y 0) k) = x (ix2 r k)) (hH : ∀ k : Fin 512, H (ix2 (y 0) k) = h (ix2 r k))
    (hC : C y = c (ix2 r (y 1)))
    (hWI : ∀ (k : Fin 512) (j : Fin 2048), WI (ix2 k j) = wih (ix2 j k))
    (hWH : ∀ (k : Fin 512) (j : Fin 2048), WH (ix2 k j) = whh (ix2 j k))
    (hB : ∀ j : Fin 2048, B (ix2 0 j) = bih (ix1 j) + bhh (ix1 j)) :
    Value.E6 (F := Ideal) X H WI WH B C y = hNew x h c wih whh bih bhh (ix2 r (y 1)) := by
  have g := gates_row X H WI WH B x h wih whh bih bhh (y 0) r hX hH hWI hWH hB
  show FloatOps.mulf (F := Ideal) (φ := .f32) (FloatOps.logistic (k0_pay1 (F := Ideal) X H WI WH B (Value.ix6_0 y)))
      (FloatOps.tanh (FloatOps.addf
        (FloatOps.mulf (FloatOps.logistic (k0_pay1 (F := Ideal) X H WI WH B (Value.ix6_1 y))) (C (Value.ix6_2 y)))
        (FloatOps.mulf (FloatOps.logistic (k0_pay1 (F := Ideal) X H WI WH B (Value.ix6_3 y)))
          (FloatOps.tanh (k0_pay1 (F := Ideal) X H WI WH B (Value.ix6_4 y)))))) = _
  rw [hid_out, hid_forget, hid_state, hid_in, hid_cand, g, g, g, g, hC]
  rfl

end

end Cert.KernelIdeal.Entry

end
-- ==== Proof.KernelBlocks.lean ====
/-
  The two result arrays after the kernel's run are the cell's new hidden state and new cell state.

  The grid has 32 points.  Point `t` works on batch rows `512·t … 512·t + 511`: it stages block `(t, 0)` of `x`, of
  `h` and of the old cell state, the whole transposed weight matrices (which the host made from the weights before
  the region: transpose, then a format change that is the identity here), and the whole summed bias row (which the
  host made by adding the two biases and giving the sum a leading unit axis), and it writes back block `(t, 0)` of each
  result.  Row `p` of a block at point `t` is row `512·t + p` of the array, so what point `t` writes back is block
  `t` of the cell's new states; and the 32 blocks tile the 16384 rows, so the arrays end holding the new states.
-/
import proofs.«177456_j73194832659130_1_alg».proof.Proof.Gen.KernelIdeal.Value
import proofs.«177456_j73194832659130_1_alg».proof.Proof.KernelEntry
import proofs.«177456_j73194832659130_1_alg».proof.Proof.Cell
import Idealize.ShloMosaic.Lib.StableHlo.Run

noncomputable section

open scoped BigOperators

namespace Cert.KernelIdeal.CellValue

open Cert.KernelIdeal Cert.KernelIdeal.Gen Cert.Lstm Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments, and the arrays the host makes from them before the region -/

abbrev xArr (c : Dev nD) : Act := m ((c : Thread nD τ).loc main_arg0)
abbrev hArr (c : Dev nD) : Act := m ((c : Thread nD τ).loc main_arg1)
abbrev cArr (c : Dev nD) : Act := m ((c : Thread nD τ).loc main_arg2)
abbrev wihArr (c : Dev nD) : Wt := m ((c : Thread nD τ).loc main_arg3)
abbrev whhArr (c : Dev nD) : Wt := m ((c : Thread nD τ).loc main_arg4)
abbrev bihArr (c : Dev nD) : Bias := m ((c : Thread nD τ).loc main_arg5)
abbrev bhhArr (c : Dev nD) : Bias := m ((c : Thread nD τ).loc main_arg6)

/-- The first weight matrix as the region finds it: transposed, then narrowed. -/
theorem V_wihT (c : Dev nD) : (V m c main_v1 : S512x2048.Idx → EReal)
    = truncf (F := Ideal) .bf16 (transpose S512x2048 [1, 0] (wihArr m c) transposes_S2048x512_S512x2048_1_0) bitsLt_bf16_f32 := by
  dsimp only [Gen.V, Gen.hostOps0]; after_results

/-- The second. -/
theorem V_whhT (c : Dev nD) : (V m c main_v3 : S512x2048.Idx → EReal)
    = truncf (F := Ideal) .bf16 (transpose S512x2048 [1, 0] (whhArr m c) transposes_S2048x512_S512x2048_1_0) bitsLt_bf16_f32 := by
  dsimp only [Gen.V, Gen.hostOps0]; after_results

/-- The bias row as the region finds it: the two biases added, the sum given a leading unit axis. -/
theorem V_bias (c : Dev nD) : (V m c main_v5 : S1x2048.Idx → EReal)
    = shapeCast S1x2048 (addf (F := Ideal) (φ := .f32) (bihArr m c) (bhhArr m c)) shapeCasts_S2048_S1x2048 := by
  dsimp only [Gen.V, Gen.hostOps0]; after_results; rfl

/-- Entry `(k, j)` of the transposed first weight matrix is `w_ih[j, k]`. -/
theorem wihT_apply (c : Dev nD) (k : Fin 512) (j : Fin 2048) :
    (V m c main_v1 : S512x2048.Idx → EReal) (ix2 k j) = wihArr m c (ix2 j k) := by
  rw [V_wihT]
  exact transpose_apply [1, 0] (wihArr m c) transposes_S2048x512_S512x2048_1_0 (ix2 k j) (ix2 j k) (fun b => match b with
    | ⟨0, _⟩ => rfl
    | ⟨1, _⟩ => rfl)

/-- Entry `(k, j)` of the transposed second weight matrix is `w_hh[j, k]`. -/
theorem whhT_apply (c : Dev nD) (k : Fin 512) (j : Fin 2048) :
    (V m c main_v3 : S512x2048.Idx → EReal) (ix2 k j) = whhArr m c (ix2 j k) := by
  rw [V_whhT]
  exact transpose_apply [1, 0] (whhArr m c) transposes_S2048x512_S512x2048_1_0 (ix2 k j) (ix2 j k) (fun b => match b with
    | ⟨0, _⟩ => rfl
    | ⟨1, _⟩ => rfl)

/-- Entry `(0, j)` of the bias row is the sum of the two biases at `j`. -/
theorem bias_apply (c : Dev nD) (j : Fin 2048) :
    (V m c main_v5 : S1x2048.Idx → EReal) (ix2 0 j) = bihArr m c (ix1 j) + bhhArr m c (ix1 j) := by
  rw [V_bias]
  refine (shapeCast_apply (addf (F := Ideal) (φ := .f32) (bihArr m c) (bhhArr m c)) shapeCasts_S2048_S1x2048 (ix2 0 j) (ix1 j) ?_).trans rfl
  rw [Shape.rowMajor_val_one, Shape.rowMajor_val_two]
  show (j : Nat) = (0 : Nat) * 2048 + j
  omega

/-! ## The index maps over the grid -/

/-- Point `t` stages block `(t, 0)` of each batch-sized array and block `(0, 0)`, the whole, of the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The batch row that row `p` of point `t`'s blocks is. -/
def rowOf (t : Fin cfg0.N) (p : Fin 512) : Fin 16384 :=
  ⟨t.val * 512 + p.val, by have h := t.isLt; have hN : cfg0.N = 32 := N_0; have := p.isLt; omega⟩

/-! ## The blocks a point stages -/

abbrev xBlk (c : Dev nD) (t : Fin cfg0.N) : S512x512.Idx → EReal := iblk m c 0 t
abbrev hBlk (c : Dev nD) (t : Fin cfg0.N) : S512x512.Idx → EReal := iblk m c 1 t
abbrev cBlk (c : Dev nD) (t : Fin cfg0.N) : S512x512.Idx → EReal := iblk m c 2 t
abbrev wiBlk (c : Dev nD) (t : Fin cfg0.N) : S512x2048.Idx → EReal := iblk m c 3 t
abbrev whBlk (c : Dev nD) (t : Fin cfg0.N) : S512x2048.Idx → EReal := iblk m c 4 t
abbrev bBlk (c : Dev nD) (t : Fin cfg0.N) : S1x2048.Idx → EReal := iblk m c 5 t

/-- Entry `y` of the `x` block at point `t` is `x` at row `512·t + y₀`, column `y₁`. -/
theorem x_block (c : Dev nD) (t : Fin cfg0.N) (y : S512x512.Idx) :
    xBlk m c t y = xArr m c (ix2 (rowOf t (y 0)) (y 1)) := by
  show V m c main_arg0 (((cfg0.win 0).blk t).view.emb y) = _
  rw [V_main_arg0]
  refine congrArg (xArr m c) (funext fun a => Fin.ext ?_)
  obtain ⟨e0, e1, -⟩ := idx_facts t
  match a with
  | ⟨0, _⟩ => show win0_0.index t (0 : Fin 2) * 512 + 1 * (y 0).val = t.val * 512 + (y 0).val; omega
  | ⟨1, _⟩ => show win0_0.index t (1 : Fin 2) * 512 + 1 * (y 1).val = (y 1).val; omega

/-- The same for the `h` block. -/
theorem h_block (c : Dev nD) (t : Fin cfg0.N) (y : S512x512.Idx) :
    hBlk m c t y = hArr m c (ix2 (rowOf t (y 0)) (y 1)) := by
  show V m c main_arg1 (((cfg0.win 1).blk t).view.emb y) = _
  rw [V_main_arg1]
  refine congrArg (hArr m c) (funext fun a => Fin.ext ?_)
  obtain ⟨-, -, e0, e1, -⟩ := idx_facts t
  match a with
  | ⟨0, _⟩ => show win0_1.index t (0 : Fin 2) * 512 + 1 * (y 0).val = t.val * 512 + (y 0).val; omega
  | ⟨1, _⟩ => show win0_1.index t (1 : Fin 2) * 512 + 1 * (y 1).val = (y 1).val; omega

/-- The same for the old cell state's block. -/
theorem c_block (c : Dev nD) (t : Fin cfg0.N) (y : S512x512.Idx) :
    cBlk m c t y = cArr m c (ix2 (rowOf t (y 0)) (y 1)) := by
  show V m c main_arg2 (((cfg0.win 2).blk t).view.emb y) = _
  rw [V_main_arg2]
  refine congrArg (cArr m c) (funext fun a => Fin.ext ?_)
  obtain ⟨-, -, -, -, e0, e1, -⟩ := idx_facts t
  match a with
  | ⟨0, _⟩ => show win0_2.index t (0 : Fin 2) * 512 + 1 * (y 0).val = t.val * 512 + (y 0).val; omega
  | ⟨1, _⟩ => show win0_2.index t (1 : Fin 2) * 512 + 1 * (y 1).val = (y 1).val; omega

/-- The first weight block is the whole transposed matrix: entry `(k, j)` is `w_ih[j, k]`. -/
theorem wi_block (c : Dev nD) (t : Fin cfg0.N) (k : Fin 512) (j : Fin 2048) :
    wiBlk m c t (ix2 k j) = wihArr m c (ix2 j k) := by
  show V m c main_v1 (((cfg0.win 3).blk t).view.emb (ix2 k j)) = _
  have e : ((cfg0.win 3).blk t).view.emb (ix2 k j) = ix2 k j := by
    funext a; apply Fin.ext
    obtain ⟨-, -, -, -, -, -, e0, e1, -⟩ := idx_facts t
    match a with
    | ⟨0, _⟩ => show win0_3.index t (0 : Fin 2) * 512 + 1 * k.val = k.val; omega
    | ⟨1, _⟩ => show win0_3.index t (1 : Fin 2) * 2048 + 1 * j.val = j.val; omega
  rw [e]
  exact wihT_apply m c k j

/-- The second weight block: entry `(k, j)` is `w_hh[j, k]`. -/
theorem wh_block (c : Dev nD) (t : Fin cfg0.N) (k : Fin 512) (j : Fin 2048) :
    whBlk m c t (ix2 k j) = whhArr m c (ix2 j k) := by
  show V m c main_v3 (((cfg0.win 4).blk t).view.emb (ix2 k j)) = _
  have e : ((cfg0.win 4).blk t).view.emb (ix2 k j) = ix2 k j := by
    funext a; apply Fin.ext
    obtain ⟨-, -, -, -, -, -, -, -, e0, e1, -⟩ := idx_facts t
    match a with
    | ⟨0, _⟩ => show win0_4.index t (0 : Fin 2) * 512 + 1 * k.val = k.val; omega
    | ⟨1, _⟩ => show win0_4.index t (1 : Fin 2) * 2048 + 1 * j.val = j.val; omega
  rw [e]
  exact whhT_apply m c k j

/-- The bias block is the whole bias row: entry `(0, j)` is the two biases' sum at `j`. -/
theorem b_block (c : Dev nD) (t : Fin cfg0.N) (j : Fin 2048) :
    bBlk m c t (ix2 0 j) = bihArr m c (ix1 j) + bhhArr m c (ix1 j) := by
  show V m c main_v5 (((cfg0.win 5).blk t).view.emb (ix2 0 j)) = _
  have e : ((cfg0.win 5).blk t).view.emb (ix2 0 j) = ix2 0 j := by
    funext a; apply Fin.ext
    obtain ⟨-, -, -, -, -, -, -, -, -, -, e0, e1, -⟩ := idx_facts t
    match a with
    | ⟨0, _⟩ => show win0_5.index t (0 : Fin 2) * 1 + 1 * 0 = 0; omega
    | ⟨1, _⟩ => show win0_5.index t (1 : Fin 2) * 2048 + 1 * j.val = j.val; omega
  rw [e]
  exact bias_apply m c j

/-- Entry `y` of the hidden state's block at point `t` lies at row `512·t + y₀`, column `y₁` of its array. -/
theorem hidden_emb (t : Fin cfg0.N) (y : S512x512.Idx) :
    ((cfg0.win 6).blk t).view.emb y = ix2 (rowOf t (y 0)) (y 1) := by
  funext a; apply Fin.ext
  obtain ⟨-, -, -, -, -, -, -, -, -, -, -, -, e0, e1, -⟩ := idx_facts t
  match a with
  | ⟨0, _⟩ => show win0_6.index t (0 : Fin 2) * 512 + 1 * (y 0).val = t.val * 512 + (y 0).val; omega
  | ⟨1, _⟩ => show win0_6.index t (1 : Fin 2) * 512 + 1 * (y 1).val = (y 1).val; omega

/-- The same for the cell state's block. -/
theorem cell_emb (t : Fin cfg0.N) (y : S512x512.Idx) :
    ((cfg0.win 7).blk t).view.emb y = ix2 (rowOf t (y 0)) (y 1) := by
  funext a; apply Fin.ext
  obtain ⟨-, -, -, -, -, -, -, -, -, -, -, -, -, -, e0, e1⟩ := idx_facts t
  match a with
  | ⟨0, _⟩ => show win0_7.index t (0 : Fin 2) * 512 + 1 * (y 0).val = t.val * 512 + (y 0).val; omega
  | ⟨1, _⟩ => show win0_7.index t (1 : Fin 2) * 512 + 1 * (y 1).val = (y 1).val; omega

/-! ## What a point writes back -/

theorem zero_offsets : (![0, 0] : Fin 2 → Nat) = fun _ => 0 :=
  funext fun a => by match a with | ⟨0, _⟩ => rfl | ⟨1, _⟩ => rfl

/-- Point `t` writes back block `t` of the new hidden state. -/
theorem hidden_flushed (c : Dev nD) (t : Fin cfg0.N) :
    (dats m 0 c).flushed 6 t = ((cfg0.win 6).blk t).view.read (Elt Ideal)
      (hNew (xArr m c) (hArr m c) (cArr m c) (wihArr m c) (whhArr m c) (bihArr m c) (bhhArr m c)) := by
  rw [Value.flushed6]
  unfold out0_6
  simp only [View.ld_unit_zero (S := S512x512) zero_offsets, View.ld_unit_zero (S := S512x2048) zero_offsets,
    View.ld_unit_zero (S := S1x2048) zero_offsets]
  funext y
  show View.canon (Val := Elt Ideal) (s := S512x512) (e := .f32) [⟨r0_0, k0_pay3 (F := Ideal) (xBlk m c t) (hBlk m c t) (wiBlk m c t) (whBlk m c t) (bBlk m c t) (cBlk m c t)⟩] y
    = hNew (xArr m c) (hArr m c) (cArr m c) (wihArr m c) (whhArr m c) (bihArr m c) (bhhArr m c)
        (((cfg0.win 6).blk t).view.emb y)
  rw [hidden_emb]
  refine (Value.canon6_eq (F := Ideal) (xBlk m c t) (hBlk m c t) (wiBlk m c t) (whBlk m c t) (bBlk m c t) (cBlk m c t) y).trans ?_
  exact Entry.hidden_entry (xBlk m c t) (hBlk m c t) (cBlk m c t) (wiBlk m c t) (whBlk m c t) (bBlk m c t)
    (xArr m c) (hArr m c) (cArr m c) (wihArr m c) (whhArr m c) (bihArr m c) (bhhArr m c) y (rowOf t (y 0))
    (fun k => x_block m c t (ix2 (y 0) k)) (fun k => h_block m c t (ix2 (y 0) k)) (c_block m c t y)
    (wi_block m c t) (wh_block m c t) (b_block m c t)

/-- Point `t` writes back block `t` of the new cell state. -/
theorem cell_flushed (c : Dev nD) (t : Fin cfg0.N) :
    (dats m 0 c).flushed 7 t = ((cfg0.win 7).blk t).view.read (Elt Ideal)
      (cNew (xArr m c) (hArr m c) (cArr m c) (wihArr m c) (whhArr m c) (bihArr m c) (bhhArr m c)) := by
  rw [Value.flushed7]
  unfold out0_7
  simp only [View.ld_unit_zero (S := S512x512) zero_offsets, View.ld_unit_zero (S := S512x2048) zero_offsets,
    View.ld_unit_zero (S := S1x2048) zero_offsets]
  funext y
  show View.canon (Val := Elt Ideal) (s := S512x512) (e := .f32) [⟨r0_0, k0_pay2 (F := Ideal) (xBlk m c t) (hBlk m c t) (wiBlk m c t) (whBlk m c t) (bBlk m c t) (cBlk m c t)⟩] y
    = cNew (xArr m c) (hArr m c) (cArr m c) (wihArr m c) (whhArr m c) (bihArr m c) (bhhArr m c)
        (((cfg0.win 7).blk t).view.emb y)
  rw [cell_emb]
  refine (Value.canon7_eq (F := Ideal) (xBlk m c t) (hBlk m c t) (wiBlk m c t) (whBlk m c t) (bBlk m c t) (cBlk m c t) y).trans ?_
  exact Entry.cell_entry (xBlk m c t) (hBlk m c t) (cBlk m c t) (wiBlk m c t) (whBlk m c t) (bBlk m c t)
    (xArr m c) (hArr m c) (cArr m c) (wihArr m c) (whhArr m c) (bihArr m c) (bhhArr m c) y (rowOf t (y 0))
    (fun k => x_block m c t (ix2 (y 0) k)) (fun k => h_block m c t (ix2 (y 0) k)) (c_block m c t y)
    (wi_block m c t) (wh_block m c t) (b_block m c t)

/-! ## The blocks tile the arrays -/

/-- An index is in point `t`'s block of the hidden state iff each coordinate is in the block's range. -/
theorem mem_hidden_blk (t : Fin cfg0.N) (i : S16384x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v6_0).slice (win0_6.rect t)).set ↔ _
  rw [View.set_slice_whole, Rect.mem_set_unit]
  exact Iff.rfl

/-- The same for the cell state. -/
theorem mem_cell_blk (t : Fin cfg0.N) (i : S16384x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v6_1).slice (win0_7.rect t)).set ↔ _
  rw [View.set_slice_whole, Rect.mem_set_unit]
  exact Iff.rfl

/-- The grid point whose blocks hold batch row `i₀`: point `i₀ / 512`. -/
def blockOf (i : S16384x512.Idx) : Fin cfg0.N :=
  ⟨(i 0).val / 512, by
    have hi0 : (i 0).val < 16384 := (i 0).isLt
    show (i 0).val / 512 < grid0.N
    rw [N_0]; omega⟩

/-- Every index of the hidden state's array is in the block of its row's point. -/
theorem hidden_cover (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  have hv : (blockOf i).val = (i 0).val / 512 := rfl
  refine ⟨blockOf i, flush0_6 _, ?_⟩
  rw [mem_hidden_blk]
  obtain ⟨-, -, -, -, -, -, -, -, -, -, -, -, e0, e1, -⟩ := idx_facts (blockOf i)
  intro a
  match a with
  | ⟨0, _⟩ =>
    show win0_6.index (blockOf i) (0 : Fin 2) * 512 ≤ (i 0).val
      ∧ (i 0).val < win0_6.index (blockOf i) (0 : Fin 2) * 512 + 512
    omega
  | ⟨1, _⟩ =>
    show win0_6.index (blockOf i) (1 : Fin 2) * 512 ≤ (i 1).val
      ∧ (i 1).val < win0_6.index (blockOf i) (1 : Fin 2) * 512 + 512
    omega

/-- The same for the cell state's array. -/
theorem cell_cover (i : S16384x512.Idx) :
    ∃ t : Fin cfg0.N, (cfg0.win 7).flush t = true ∧ i ∈ ((cfg0.win 7).blk t).view.set := by
  have hi0 : (i 0).val < 16384 := (i 0).isLt
  have hi1 : (i 1).val < 512 := (i 1).isLt
  have hv : (blockOf i).val = (i 0).val / 512 := rfl
  refine ⟨blockOf i, flush0_7 _, ?_⟩
  rw [mem_cell_blk]
  obtain ⟨-, -, -, -, -, -, -, -, -, -, -, -, -, -, e0, e1⟩ := idx_facts (blockOf i)
  intro a
  match a with
  | ⟨0, _⟩ =>
    show win0_7.index (blockOf i) (0 : Fin 2) * 512 ≤ (i 0).val
      ∧ (i 0).val < win0_7.index (blockOf i) (0 : Fin 2) * 512 + 512
    omega
  | ⟨1, _⟩ =>
    show win0_7.index (blockOf i) (1 : Fin 2) * 512 ≤ (i 1).val
      ∧ (i 1).val < win0_7.index (blockOf i) (1 : Fin 2) * 512 + 512
    omega

/-! ## The arrays after the run -/

/-- The first result array ends holding the new hidden state. -/
theorem hidden_final (c : Dev nD) : (dats m 0 c).arrAt 6 cfg0.N
    = hNew (xArr m c) (hArr m c) (cArr m c) (wihArr m c) (whhArr m c) (bihArr m c) (bhhArr m c) :=
  (dats m 0 c).arrAt_eq_of_cover 6 _ (fun t _ => hidden_flushed m c t) hidden_cover

/-- The second result array ends holding the new cell state. -/
theorem cell_final (c : Dev nD) : (dats m 0 c).arrAt 7 cfg0.N
    = cNew (xArr m c) (hArr m c) (cArr m c) (wihArr m c) (whhArr m c) (bihArr m c) (bhhArr m c) :=
  (dats m 0 c).arrAt_eq_of_cover 7 _ (fun t _ => cell_flushed m c t) cell_cover

/-- Every weakly fair execution of the kernel program ends with the two results at the cell's new states of the
    arguments, the arguments unchanged. -/
theorem run : θ_run defs (onTc (τ := τ) (main (F := Ideal))) ⟨m, fun _ => 0, ρ⟩ fun r => ∀ c : Dev nD,
      r.2.mem ((c : Thread nD τ).loc main_v6_0)
        = hNew (xArr m c) (hArr m c) (cArr m c) (wihArr m c) (whhArr m c) (bihArr m c) (bhhArr m c)
      ∧ r.2.mem ((c : Thread nD τ).loc main_v6_1)
        = cNew (xArr m c) (hArr m c) (cArr m c) (wihArr m c) (whhArr m c) (bihArr m c) (bhhArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (Value.run_blocks m ρ)

end Cert.KernelIdeal.CellValue

end
-- ==== Proof.RefCell.lean ====
/-
  The reference's two results are the cell's new hidden state and new cell state.

  The reference forms all the pre-activations at once, `[16384, 2048]`, as
  `((x · w_ihᵀ + b_ih) + h · w_hhᵀ) + b_hh` — each product a sum over the 512 contracted columns, each bias repeated
  down the rows —, cuts the four gate blocks out of the columns, spells the logistic function as the quotient
  `1 / (1 + e^(-z))`, and combines the gates entry by entry.  Read at one entry, the pre-activation is the cell's
  (the summands regrouped), the quotient is the logistic function, and the combination is the cell's own.
-/
import proofs.«177456_j73194832659130_1_alg».proof.Proof.Gen.ReferenceIdeal.Read
import proofs.«177456_j73194832659130_1_alg».proof.Proof.Cell

noncomputable section

open scoped BigOperators

namespace Cert.ReferenceIdeal.Cell

open Cert.ReferenceIdeal Cert.ReferenceIdeal.Read Cert.Lstm Idealize.ShloMosaic Idealize.ShloMosaic.ValueIdx

variable (x0 x1 x2 : (⟨S16384x512, .f32⟩ : BufTy).Contents (Elt Ideal))
  (x3 x4 : (⟨S2048x512, .f32⟩ : BufTy).Contents (Elt Ideal)) (x5 x6 : (⟨S2048, .f32⟩ : BufTy).Contents (Elt Ideal))

/-! ## Where each product and bias is read -/

/-- The first product's left factor at `(r, j)` and contraction position `k` is `x[r, k]`. -/
theorem x_idx (j : S16384x2048.Idx) (k : Fin 512) : lidx_main_v1 j k = ix2 (j 0) k :=
  funext fun a => by match a with | ⟨0, _⟩ => rfl | ⟨1, _⟩ => rfl
/-- Its right factor, the transposed weight at `(k, j)`, is `w_ih[j, k]`. -/
theorem wih_idx (j : S16384x2048.Idx) (k : Fin 512) : idx_main_v0 (ridx_main_v1 j k) = ix2 (j 1) k :=
  funext fun a => by match a with | ⟨0, _⟩ => rfl | ⟨1, _⟩ => rfl
/-- The second product's left factor is `h[r, k]`. -/
theorem h_idx (j : S16384x2048.Idx) (k : Fin 512) : lidx_main_v6 j k = ix2 (j 0) k :=
  funext fun a => by match a with | ⟨0, _⟩ => rfl | ⟨1, _⟩ => rfl
/-- Its right factor is `w_hh[j, k]`. -/
theorem whh_idx (j : S16384x2048.Idx) (k : Fin 512) : idx_main_v5 (ridx_main_v6 j k) = ix2 (j 1) k :=
  funext fun a => by match a with | ⟨0, _⟩ => rfl | ⟨1, _⟩ => rfl
/-- The first bias, made a row and repeated down the rows, is read at its column. -/
theorem bih_idx (j : S16384x2048.Idx) : idx_main_v2 (idx_main_v3 j) = ix1 (j 1) :=
  funext fun a => by match a with | ⟨0, _⟩ => rfl
/-- So is the second. -/
theorem bhh_idx (j : S16384x2048.Idx) : idx_main_v8 (idx_main_v9 j) = ix1 (j 1) :=
  funext fun a => by match a with | ⟨0, _⟩ => rfl

/-! ## The pre-activations -/

/-- The reference's pre-activation at `(r, j)` is the cell's: the same four summands, grouped bias by bias. -/
theorem gates_apply (j : S16384x2048.Idx) :
    val_main_v10 (F := Ideal) x0 x1 x3 x4 x5 x6 j = gate x0 x1 x3 x4 x5 x6 (j 0) (j 1) := by
  rw [val_main_v10_apply, val_main_v7_apply, val_main_v4_apply, val_main_v1_apply, val_main_v6_apply,
    val_main_v3_apply, val_main_v2_apply, val_main_v9_apply, val_main_v8_apply]
  simp only [val_main_v0_apply, val_main_v5_apply, x_idx, wih_idx, h_idx, whh_idx, bih_idx, bhh_idx]
  exact add_regroup _ _ _ _

/-- Column `q` of the block cut at column 0 is gate column `q`. -/
theorem col_v11 (i : S16384x512.Idx) : (idx_main_v11 i) 1 = col 0 (by decide) (i 1) :=
  Fin.ext (by show (i 1).val = 0 + (i 1).val; omega)
theorem col_v12 (i : S16384x512.Idx) : (idx_main_v12 i) 1 = col 512 (by decide) (i 1) := rfl
theorem col_v13 (i : S16384x512.Idx) : (idx_main_v13 i) 1 = col 1024 (by decide) (i 1) := rfl
theorem col_v14 (i : S16384x512.Idx) : (idx_main_v14 i) 1 = col 1536 (by decide) (i 1) := rfl

/-- The input gate's pre-activation. -/
theorem pre_in (i : S16384x512.Idx) :
    val_main_v11 (F := Ideal) x0 x1 x3 x4 x5 x6 i = gate x0 x1 x3 x4 x5 x6 (i 0) (col 0 (by decide) (i 1)) :=
  (val_main_v11_apply x0 x1 x3 x4 x5 x6 i).trans ((gates_apply x0 x1 x3 x4 x5 x6 (idx_main_v11 i)).trans
    (congrArg (gate x0 x1 x3 x4 x5 x6 (i 0)) (col_v11 i)))
/-- The forget gate's. -/
theorem pre_forget (i : S16384x512.Idx) :
    val_main_v12 (F := Ideal) x0 x1 x3 x4 x5 x6 i = gate x0 x1 x3 x4 x5 x6 (i 0) (col 512 (by decide) (i 1)) :=
  (val_main_v12_apply x0 x1 x3 x4 x5 x6 i).trans ((gates_apply x0 x1 x3 x4 x5 x6 (idx_main_v12 i)).trans
    (congrArg (gate x0 x1 x3 x4 x5 x6 (i 0)) (col_v12 i)))
/-- The candidate's. -/
theorem pre_cand (i : S16384x512.Idx) :
    val_main_v13 (F := Ideal) x0 x1 x3 x4 x5 x6 i = gate x0 x1 x3 x4 x5 x6 (i 0) (col 1024 (by decide) (i 1)) :=
  (val_main_v13_apply x0 x1 x3 x4 x5 x6 i).trans ((gates_apply x0 x1 x3 x4 x5 x6 (idx_main_v13 i)).trans
    (congrArg (gate x0 x1 x3 x4 x5 x6 (i 0)) (col_v13 i)))
/-- The output gate's. -/
theorem pre_out (i : S16384x512.Idx) :
    val_main_v14 (F := Ideal) x0 x1 x3 x4 x5 x6 i = gate x0 x1 x3 x4 x5 x6 (i 0) (col 1536 (by decide) (i 1)) :=
  (val_main_v14_apply x0 x1 x3 x4 x5 x6 i).trans ((gates_apply x0 x1 x3 x4 x5 x6 (idx_main_v14 i)).trans
    (congrArg (gate x0 x1 x3 x4 x5 x6 (i 0)) (col_v14 i)))

/-! ## The three quotients are the logistic function -/

theorem sig_in (i : S16384x512.Idx) :
    val_main_v20 (F := Ideal) x0 x1 x3 x4 x5 x6 i = Ideal.logistic (val_main_v11 (F := Ideal) x0 x1 x3 x4 x5 x6 i) := by
  rw [val_main_v20_apply, val_main_v19_apply, val_main_cst_0_apply, val_main_v18_apply, val_main_v17_apply,
    val_main_cst_apply, val_main_v16_apply, val_main_v15_apply]
  exact logistic_of_quotient _
theorem sig_forget (i : S16384x512.Idx) :
    val_main_v26 (F := Ideal) x0 x1 x3 x4 x5 x6 i = Ideal.logistic (val_main_v12 (F := Ideal) x0 x1 x3 x4 x5 x6 i) := by
  rw [val_main_v26_apply, val_main_v25_apply, val_main_cst_2_apply, val_main_v24_apply, val_main_v23_apply,
    val_main_cst_1_apply, val_main_v22_apply, val_main_v21_apply]
  exact logistic_of_quotient _
theorem sig_out (i : S16384x512.Idx) :
    val_main_v33 (F := Ideal) x0 x1 x3 x4 x5 x6 i = Ideal.logistic (val_main_v14 (F := Ideal) x0 x1 x3 x4 x5 x6 i) := by
  rw [val_main_v33_apply, val_main_v32_apply, val_main_cst_4_apply, val_main_v31_apply, val_main_v30_apply,
    val_main_cst_3_apply, val_main_v29_apply, val_main_v28_apply]
  exact logistic_of_quotient _

/-! ## The two results -/

/-- The reference's new cell state, entry by entry. -/
theorem c_apply (i : S16384x512.Idx) :
    val_main_v36 (F := Ideal) x0 x1 x2 x3 x4 x5 x6 i = cNew x0 x1 x2 x3 x4 x5 x6 i := by
  rw [val_main_v36_apply, val_main_v34_apply, val_main_v35_apply, sig_forget, sig_in, val_main_v27_apply,
    pre_forget, pre_in, pre_cand]
  rfl

/-- The reference's new hidden state, entry by entry. -/
theorem h_apply (i : S16384x512.Idx) :
    val_main_v38 (F := Ideal) x0 x1 x2 x3 x4 x5 x6 i = hNew x0 x1 x2 x3 x4 x5 x6 i := by
  rw [val_main_v38_apply, sig_out, val_main_v37_apply, c_apply, pre_out]
  rfl

/-- As whole arrays. -/
theorem c_eq : val_main_v36 (F := Ideal) x0 x1 x2 x3 x4 x5 x6 = cNew x0 x1 x2 x3 x4 x5 x6 :=
  funext (c_apply x0 x1 x2 x3 x4 x5 x6)
theorem h_eq : val_main_v38 (F := Ideal) x0 x1 x2 x3 x4 x5 x6 = hNew x0 x1 x2 x3 x4 x5 x6 :=
  funext (h_apply x0 x1 x2 x3 x4 x5 x6)

end Cert.ReferenceIdeal.Cell

end
-- ==== Proof.lean ====
/-
  One step of an LSTM cell: batch 16384, input and hidden width 512, weights `[2048, 512]`, two biases `[2048]`.

  The kernel program transposes the two weight matrices and adds the two biases on the host, then runs one kernel over
  32 blocks of 512 batch rows; each block forms the gate pre-activations `x · w_ihᵀ + h · w_hhᵀ + (b_ih + b_hh)` for
  its rows by two matrix products into zero accumulators, applies the logistic function to the input, forget and
  output blocks and the hyperbolic tangent to the candidate block, and writes `c' = f · c + i · g` and
  `h' = o · tanh c'`.  The reference forms `((x · w_ihᵀ + b_ih) + h · w_hhᵀ) + b_hh` for all rows at once, spells the
  logistic function as `1 / (1 + e^(-z))`, and combines the gates the same way.

  On the extended reals the two are one function.  A matrix product is the sum over the contracted coordinate on both
  sides, a format change is the identity, addition is commutative and associative (so the two groupings of the four
  summands of a pre-activation agree, with no appeal to finiteness), the quotient `1 / (1 + e^(-z))` is the logistic
  function, and the hyperbolic tangent is the same function in a kernel and on the host.  The kernel's 32 blocks tile
  the 16384 rows, so its result arrays hold that function of the arguments entry by entry, and so do the reference's.

  All three programs run to the end without a fault and leave their arguments unchanged; the idealized kernel is the
  kernel's own text read on the extended reals (no operation was rewritten).
-/
import proofs.«177456_j73194832659130_1_alg».proof.Defs
import proofs.«177456_j73194832659130_1_alg».proof.Proof.Gen.Kernel
import proofs.«177456_j73194832659130_1_alg».proof.Proof.Gen.Kernel.Skeleton
import proofs.«177456_j73194832659130_1_alg».proof.Proof.Gen.Kernel.Launch
import proofs.«177456_j73194832659130_1_alg».proof.Proof.Gen.Kernel.Points
import proofs.«177456_j73194832659130_1_alg».proof.Proof.Gen.Kernel.Frame
import proofs.«177456_j73194832659130_1_alg».proof.Proof.Gen.KernelIdeal
import proofs.«177456_j73194832659130_1_alg».proof.Proof.Gen.KernelIdeal.Skeleton
import proofs.«177456_j73194832659130_1_alg».proof.Proof.Gen.KernelIdeal.Launch
import proofs.«177456_j73194832659130_1_alg».proof.Proof.Gen.KernelIdeal.Points
import proofs.«177456_j73194832659130_1_alg».proof.Proof.Gen.KernelIdeal.Frame
import proofs.«177456_j73194832659130_1_alg».proof.Proof.Gen.ReferenceIdeal
import proofs.«177456_j73194832659130_1_alg».proof.Proof.Gen.Pre_finite_inputs
import proofs.«177456_j73194832659130_1_alg».proof.Proof.Gen.KernelIdeal.Value
import proofs.«177456_j73194832659130_1_alg».proof.Proof.Gen.ReferenceIdeal.Run
import proofs.«177456_j73194832659130_1_alg».proof.Proof.Gen.ReferenceIdeal.Read
import proofs.«177456_j73194832659130_1_alg».proof.Proof.KernelBlocks
import proofs.«177456_j73194832659130_1_alg».proof.Proof.RefCell
import Idealize.ShloMosaic.Adequacy
import Idealize.ShloMosaic.Init

noncomputable section

namespace Cert.Proof

open Idealize.ShloMosaic Idealize.ShloMosaic.TcCoe Idealize.SL.Sem

/-- The kernel program, on machine words, runs to the end and leaves its arguments as they were. -/
theorem frame_kernel : Cert.frame_Kernel := fun m ρ _ => Cert.Kernel.Gen.frame m ρ

/-- So does the kernel program on the extended reals. -/
theorem frame_kernel_ideal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the new hidden state and the new cell state of
    the cell, the same two functions of the arguments. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v38_eq, Cert.ReferenceIdeal.Cell.h_eq, (hagree c).1, (hagree c).2.1,
      (hagree c).2.2.1, (hagree c).2.2.2.1, (hagree c).2.2.2.2.1, (hagree c).2.2.2.2.2.1, (hagree c).2.2.2.2.2.2]
  · refine (Cert.ReferenceIdeal.Read.val_main_v36_eq _ _ _ _ _ _ _).trans ?_
    rw [Cert.ReferenceIdeal.Cell.c_eq, (hagree c).1, (hagree c).2.1,
      (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
